-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x10 : Shape := ⟨2, ![16384, 10]⟩
abbrev S100000x128 : Shape := ⟨2, ![100000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x256 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S16384 32) (main_arg1 : IVec S16384x10 32) (main_arg2 : FVec F S100000x128 .f32) (main_arg3 : FVec F S256x256 .f32) (main_arg4 : FVec F S256 .f32) (main_arg5 : FVec F S128x256 .f32) (main_arg6 : FVec F S128 .f32) (main_arg7 : FVec F S128x256 .f32) (main_arg8 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S16384 : Shape := ⟨1, ![16384]⟩
abbrev S16384x10 : Shape := ⟨2, ![16384, 10]⟩
abbrev S100000x128 : Shape := ⟨2, ![100000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S16384x1 : Shape := ⟨2, ![16384, 1]⟩
abbrev S16384x128 : Shape := ⟨2, ![16384, 128]⟩
abbrev S16384x10x1 : Shape := ⟨3, ![16384, 10, 1]⟩
abbrev S16384x10x128 : Shape := ⟨3, ![16384, 10, 128]⟩
abbrev S256x128 : Shape := ⟨2, ![256, 128]⟩
abbrev S1x256 : Shape := ⟨2, ![1, 256]⟩
abbrev S1x128 : Shape := ⟨2, ![1, 128]⟩
abbrev S2048x10x128 : Shape := ⟨3, ![2048, 10, 128]⟩
abbrev S2048x128 : Shape := ⟨2, ![2048, 128]⟩
abbrev S2048x256 : Shape := ⟨2, ![2048, 256]⟩
abbrev S2048x1x128 : Shape := ⟨3, ![2048, 1, 128]⟩

abbrev nBuf : Space → Nat
  | .hbm => 44
  | .vmem => 15
  | .smem => 0
  | _ => 0

abbrev bufTy : (tb : Table) → Fin (tcTables nBuf tb) → BufTy
  | .hbm, ⟨0, _⟩ => ⟨S16384, .i32⟩
  | .hbm, ⟨1, _⟩ => ⟨S16384x10, .i32⟩
  | .hbm, ⟨2, _⟩ => ⟨S100000x128, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S_, .i32⟩
  | .hbm, ⟨19, _⟩ => ⟨S16384x10, .i32⟩
  | .hbm, ⟨20, _⟩ => ⟨S16384x10, .i1⟩
  | .hbm, ⟨21, _⟩ => ⟨S_, .i32⟩
  | .hbm, ⟨22, _⟩ => ⟨S16384x10, .i32⟩
  | .hbm, ⟨23, _⟩ => ⟨S16384x10, .i32⟩
  | .hbm, ⟨24, _⟩ => ⟨S16384x10, .i32⟩
  | .hbm, ⟨25, _⟩ => ⟨S16384x10x1, .i32⟩
  | .hbm, ⟨26, _⟩ => ⟨S16384x10x128, .f32⟩
  | .hbm, ⟨27, _⟩ => ⟨S16384x128, .bf16⟩
  | .hbm, ⟨28, _⟩ => ⟨S16384x10x128, .bf16⟩
  | .hbm, ⟨29, _⟩ => ⟨S256x128, .f32⟩
  | .hbm, ⟨30, _⟩ => ⟨S128x256, .f32⟩
  | .hbm, ⟨31, _⟩ => ⟨S128x256, .bf16⟩
  | .hbm, ⟨32, _⟩ => ⟨S256x128, .f32⟩
  | .hbm, ⟨33, _⟩ => ⟨S128x256, .f32⟩
  | .hbm, ⟨34, _⟩ => ⟨S128x256, .bf16⟩
  | .hbm, ⟨35, _⟩ => ⟨S256x128, .f32⟩
  | .hbm, ⟨36, _⟩ => ⟨S256x128, .bf16⟩
  | .hbm, ⟨37, _⟩ => ⟨S256x128, .f32⟩
  | .hbm, ⟨38, _⟩ => ⟨S256x128, .bf16⟩
  | .hbm, ⟨39, _⟩ => ⟨S1x256, .f32⟩
  | .hbm, ⟨40, _⟩ => ⟨S1x128, .f32⟩
  | .hbm, ⟨41, _⟩ => ⟨S1x128, .f32⟩
  | .hbm, ⟨42, _⟩ => ⟨S16384x128, .f32⟩
  | .hbm, ⟨43, _⟩ => ⟨S16384x128, .f32⟩
  | .local _ .vmem, ⟨0, _⟩ => ⟨S2048x10x128, .bf16⟩
  | .local _ .vmem, ⟨1, _⟩ => ⟨S2048x10x128, .bf16⟩
  | .local _ .vmem, ⟨2, _⟩ => ⟨S2048x128, .bf16⟩
  | .local _ .vmem, ⟨3, _⟩ => ⟨S2048x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S256x128, .bf16⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  bitsLt_bf16_f32 : FTy.bits .bf16 < FTy.bits .f32
  slices_S256x256_S256x128_0_0 : S256x256.Slices ![0, 0] S256x128
  transposes_S256x128_S128x256_1_0 : S256x128.Transposes [1, 0] S128x256
  slices_S256x256_S256x128_0_128 : S256x256.Slices ![0, 128] S256x128
  transposes_S128x256_S256x128_1_0 : S128x256.Transposes [1, 0] S256x128
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x10x128_S2048x10x128_0_0_0 : ∀ a, (![0, 0, 0] : Fin 3 → Nat) a + S2048x10x128.size a ≤ S2048x10x128.size a
  h_S2048x10x128 : 0 < S2048x10x128.numel
  shapeCasts_S2048x10x128_S2048x10x128 : S2048x10x128.ShapeCasts S2048x10x128
  slices_S2048x10x128_o0_0_0_S2048x1x128 : S2048x10x128.Slices ![0, 0, 0] S2048x1x128
  shapeCasts_S2048x1x128_S2048x128 : S2048x1x128.ShapeCasts S2048x128
  slices_S2048x10x128_o0_1_0_S2048x1x128 : S2048x10x128.Slices ![0, 1, 0] S2048x1x128
  slices_S2048x10x128_o0_2_0_S2048x1x128 : S2048x10x128.Slices ![0, 2, 0] S2048x1x128
  slices_S2048x10x128_o0_3_0_S2048x1x128 : S2048x10x128.Slices ![0, 3, 0] S2048x1x128
  slices_S2048x10x128_o0_4_0_S2048x1x128 : S2048x10x128.Slices ![0, 4, 0] S2048x1x128
  slices_S2048x10x128_o0_5_0_S2048x1x128 : S2048x10x128.Slices ![0, 5, 0] S2048x1x128
  slices_S2048x10x128_o0_6_0_S2048x1x128 : S2048x10x128.Slices ![0, 6, 0] S2048x1x128
  slices_S2048x10x128_o0_7_0_S2048x1x128 : S2048x10x128.Slices ![0, 7, 0] S2048x1x128
  slices_S2048x10x128_o0_8_0_S2048x1x128 : S2048x10x128.Slices ![0, 8, 0] S2048x1x128
  slices_S2048x10x128_o0_9_0_S2048x1x128 : S2048x10x128.Slices ![0, 9, 0] S2048x1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  gather_S100000x128_S16384x1_S16384x128_1_0_n_n_0_1_1128_wf : GatherDims.WF S100000x128 S16384x1 S16384x128 [1] [0] [] [0] [] 1 ![1, 128]
  gather_S100000x128_S16384x10x1_S16384x10x128_2_0_n_n_0_2_1128_wf : GatherDims.WF S100000x128 S16384x10x1 S16384x10x128 [2] [0] [] [0] [] 2 ![1, 128]
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10x128.size a ≤ S16384x10x128.size a
  hwx0_0 : ∀ i : grid0.Coords, EltTy.bits .bf16 = 32 ∨ (Rect.block (s := S16384x10x128) S2048x10x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S16384x128.size a
  hwx0_9 : ∀ i : grid0.Coords, EltTy.bits .f32 = 32 ∨ (Rect.block (s := S16384x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S16384x128.size a
  hwx0_10 : ∀ i : grid0.Coords, EltTy.bits .f32 = 32 ∨ (Rect.block (s := S16384x128) S2048x128.size (cc0_transform_10 i) (hinb0_10 i)).WholeWords (EltTy.packing .f32)

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S16384x10x1_S16384x10x128_2_0_n_n_0_2_1128 : GatherDims S100000x128 S16384x10x1 S16384x10x128 where
  offsetDims := [2]
  collapsedSliceDims := [0]
  operandBatchingDims := []
  startIndicesBatchingDims := []
  startIndexMap := [0]
  indexVectorDim := 2
  sliceSizes := ![1, 128]
  wf := gather_S100000x128_S16384x10x1_S16384x10x128_2_0_n_n_0_2_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v15) S2048x10x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_1) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384 : Shape := ⟨1, ![16384]⟩
abbrev S16384x10 : Shape := ⟨2, ![16384, 10]⟩
abbrev S100000x128 : Shape := ⟨2, ![100000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S16384x1 : Shape := ⟨2, ![16384, 1]⟩
abbrev S16384x128 : Shape := ⟨2, ![16384, 128]⟩
abbrev S16384x10x1 : Shape := ⟨3, ![16384, 10, 1]⟩
abbrev S16384x10x128 : Shape := ⟨3, ![16384, 10, 128]⟩
abbrev S16384x1x128 : Shape := ⟨3, ![16384, 1, 128]⟩
abbrev S16384x10x256 : Shape := ⟨3, ![16384, 10, 256]⟩
abbrev S1x1x256 : Shape := ⟨3, ![1, 1, 256]⟩
abbrev S16384x256 : Shape := ⟨2, ![16384, 256]⟩
abbrev S256x128 : Shape := ⟨2, ![256, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x10, .i32⟩
  | .hbm, ⟨2, _⟩ => ⟨S100000x128, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S_, .i32⟩
  | .hbm, ⟨19, _⟩ => ⟨S16384x10, .i32⟩
  | .hbm, ⟨20, _⟩ => ⟨S16384x10, .i1⟩
  | .hbm, ⟨21, _⟩ => ⟨S_, .i32⟩
  | .hbm, ⟨22, _⟩ => ⟨S16384x10, .i32⟩
  | .hbm, ⟨23, _⟩ => ⟨S16384x10, .i32⟩
  | .hbm, ⟨24, _⟩ => ⟨S16384x10, .i32⟩
  | .hbm, ⟨25, _⟩ => ⟨S16384x10x1, .i32⟩
  | .hbm, ⟨26, _⟩ => ⟨S16384x10x128, .f32⟩
  | .hbm, ⟨27, _⟩ => ⟨S16384x1x128, .f32⟩
  | .hbm, ⟨28, _⟩ => ⟨S16384x10x128, .f32⟩
  | .hbm, ⟨29, _⟩ => ⟨S16384x10x256, .f32⟩
  | .hbm, ⟨30, _⟩ => ⟨S16384x10x256, .f32⟩
  | .hbm, ⟨31, _⟩ => ⟨S1x1x256, .f32⟩
  | .hbm, ⟨32, _⟩ => ⟨S16384x10x256, .f32⟩
  | .hbm, ⟨33, _⟩ => ⟨S16384x10x256, .f32⟩
  | .hbm, ⟨34, _⟩ => ⟨S_, .f32⟩
  | .hbm, ⟨35, _⟩ => ⟨S16384x10x256, .f32⟩
  | .hbm, ⟨36, _⟩ => ⟨S16384x10x256, .f32⟩
  | .hbm, ⟨37, _⟩ => ⟨S_, .f32⟩
  | .hbm, ⟨38, _⟩ => ⟨S16384x256, .f32⟩
  | .hbm, ⟨39, _⟩ => ⟨S256x128, .f32⟩
  | .hbm, ⟨40, _⟩ => ⟨S16384x128, .f32⟩
  | .hbm, ⟨41, _⟩ => ⟨S1x128, .f32⟩
  | .hbm, ⟨42, _⟩ => ⟨S16384x128, .f32⟩
  | .hbm, ⟨43, _⟩ => ⟨S16384x128, .f32⟩
  | .hbm, ⟨44, _⟩ => ⟨S256x128, .f32⟩
  | .hbm, ⟨45, _⟩ => ⟨S16384x128, .f32⟩
  | .hbm, ⟨46, _⟩ => ⟨S1x128, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S16384x128, .i1⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_v33 : Ref sig .tc := ⟨.hbm, 62, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  bcast_S16384x128_S16384x1x128_0_2 : S16384x128.BroadcastsInDim S16384x1x128 (![0, 2] : Fin 2 → Fin S16384x1x128.rank)
  bcast_S16384x1x128_S16384x10x128_0_1_2 : S16384x1x128.BroadcastsInDim S16384x10x128 (![0, 1, 2] : Fin 3 → Fin S16384x10x128.rank)
  concatenates_S16384x10x128_S16384x10x128_S16384x10x256_d2 : Shape.Concatenates [S16384x10x128, S16384x10x128] S16384x10x256 2
  bcast_S256_S1x1x256_2 : S256.BroadcastsInDim S1x1x256 (![2] : Fin 1 → Fin S1x1x256.rank)
  bcast_S1x1x256_S16384x10x256_0_1_2 : S1x1x256.BroadcastsInDim S16384x10x256 (![0, 1, 2] : Fin 3 → Fin S16384x10x256.rank)
  bcast_S_S16384x10x256 : S_.BroadcastsInDim S16384x10x256 (![] : Fin 0 → Fin S16384x10x256.rank)
  reducesTo_S16384x10x256_S16384x256_d1 : S16384x10x256.ReducesTo [1] S16384x256
  h_S_ : 0 < S_.numel
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]
  gather_S100000x128_S16384x10x1_S16384x10x128_2_0_n_n_0_2_1128_wf : GatherDims.WF S100000x128 S16384x10x1 S16384x10x128 [2] [0] [] [0] [] 2 ![1, 128]
  dot_S16384x10x256_S256x256_S16384x10x256_2_1_01_0_n_n_wf : DotDims.WF S16384x10x256 S256x256 S16384x10x256 [2] [1] [0, 1] [0] [] []
  dot_S16384x256_S256x128_S16384x128_1_0_0_1_n_n_wf : DotDims.WF S16384x256 S256x128 S16384x128 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S16384x10x1_S16384x10x128_2_0_n_n_0_2_1128 : GatherDims S100000x128 S16384x10x1 S16384x10x128 where
  offsetDims := [2]
  collapsedSliceDims := [0]
  operandBatchingDims := []
  startIndicesBatchingDims := []
  startIndexMap := [0]
  indexVectorDim := 2
  sliceSizes := ![1, 128]
  wf := gather_S100000x128_S16384x10x1_S16384x10x128_2_0_n_n_0_2_1128_wf
def dot_S16384x10x256_S256x256_S16384x10x256_2_1_01_0_n_n : DotDims S16384x10x256 S256x256 S16384x10x256 where
  lhsContracting := [2]
  rhsContracting := [1]
  lhsNonContracting := [0, 1]
  rhsNonContracting := [0]
  lhsBatch := []
  rhsBatch := []
  wf := dot_S16384x10x256_S256x256_S16384x10x256_2_1_01_0_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The mathematics both programs compute, one row of the batch at a time.

  For a batch row with context embeddings `cw c d` (ten contexts, 128 features) and target embedding `tw d`, a
  256-wide hidden vector is formed: context `c` contributes `max (pre c e) 0` where
  `pre c e = Σ_d cw c d · A d e + (Σ_d tw d · B d e + mb e)`; `A` and `B` are the two halves of the 256 × 256 weight,
  each read transposed. The hidden vector is the sum over the ten contexts. Each output is a linear head of the
  hidden vector, `Σ_k h k · W k j + bias j`, the second head followed by softplus.

  The laws that join the two programs need only that addition on the extended reals is a commutative monoid:
  a sum over 256 coordinates splits into the sums over its two halves, and a sum of ten terms taken left to right
  from zero is the sum over `Fin 10`. No distributivity is used, so nothing here needs finiteness.
-/
import Idealize.ShloMosaic.Lib.ValueIdx
import Idealize.ShloMosaic.PureOps.Ideal.Laws

noncomputable section

open scoped BigOperators

namespace Cert.Spec

open Idealize.ShloMosaic Idealize.ShloMosaic.ValueIdx

/-- Coordinate `d` of the first half of the 256 contracted coordinates. -/
def lo (d : Fin 128) : Fin 256 := ⟨d.val, by omega⟩
/-- Coordinate `d` of the second half. -/
def hi (d : Fin 128) : Fin 256 := ⟨128 + d.val, by omega⟩

@[simp] theorem lo_val (d : Fin 128) : (lo d).val = d.val := rfl
@[simp] theorem hi_val (d : Fin 128) : (hi d).val = 128 + d.val := rfl

/-! ## One row -/

/-- The pre-activation of context `c` at hidden coordinate `e`. -/
def pre (cw : Fin 10 → Fin 128 → EReal) (tw : Fin 128 → EReal) (A B : Fin 128 → Fin 256 → EReal) (mb : Fin 256 → EReal)
    (c : Fin 10) (e : Fin 256) : EReal :=
  (∑ d : Fin 128, cw c d * A d e) + ((∑ d : Fin 128, tw d * B d e) + mb e)

/-- The hidden vector: the rectified pre-activations summed over the ten contexts. -/
def hid (cw : Fin 10 → Fin 128 → EReal) (tw : Fin 128 → EReal) (A B : Fin 128 → Fin 256 → EReal) (mb : Fin 256 → EReal)
    (e : Fin 256) : EReal :=
  ∑ c : Fin 10, max (pre cw tw A B mb c e) 0

/-- A linear head of a hidden vector. -/
def head (h : Fin 256 → EReal) (W : Fin 256 → Fin 128 → EReal) (bias : Fin 128 → EReal) (j : Fin 128) : EReal :=
  (∑ k : Fin 256, h k * W k j) + bias j

/-- Softplus on the extended reals, in the numerically stable form both programs use:
    `max x 0 + log1p (exp (-|x|))`. -/
def softplus (x : EReal) : EReal := max x 0 + Ideal.log1p (Ideal.exp (-(max x (-x))))

/-! ## The whole arrays -/

section Arrays
variable (cw : (⟨3, ![16384, 10, 128]⟩ : Shape).Idx → EReal) (tw : (⟨2, ![16384, 128]⟩ : Shape).Idx → EReal)
  (Mw : (⟨2, ![256, 256]⟩ : Shape).Idx → EReal) (Mb : (⟨1, ![256]⟩ : Shape).Idx → EReal)

/-- The hidden vector of batch row `b`, from the gathered embeddings and the 256 × 256 weight: the first 128 columns
    of the weight meet the context embedding, the last 128 the target embedding. -/
def hidAt (b : Fin 16384) : Fin 256 → EReal :=
  hid (fun c d => cw (ix3 b c d)) (fun d => tw (ix2 b d)) (fun d e => Mw (ix2 e (lo d))) (fun d e => Mw (ix2 e (hi d)))
    (fun e => Mb (ix1 e))

/-- A head with weight `W` (128 × 256, read transposed) and bias `bias`, at row `b`. -/
def headAt (W : (⟨2, ![128, 256]⟩ : Shape).Idx → EReal) (bias : (⟨1, ![128]⟩ : Shape).Idx → EReal) (b : Fin 16384)
    (j : Fin 128) : EReal :=
  head (hidAt cw tw Mw Mb b) (fun k j => W (ix2 j k)) (fun j => bias (ix1 j)) j

/-- The first result: the mean head. -/
def mu (W : (⟨2, ![128, 256]⟩ : Shape).Idx → EReal) (bias : (⟨1, ![128]⟩ : Shape).Idx → EReal) :
    (⟨2, ![16384, 128]⟩ : Shape).Idx → EReal :=
  fun i => headAt cw tw Mw Mb W bias (i 0) (i 1)

/-- The second result: softplus of the scale head. -/
def sigma (W : (⟨2, ![128, 256]⟩ : Shape).Idx → EReal) (bias : (⟨1, ![128]⟩ : Shape).Idx → EReal) :
    (⟨2, ![16384, 128]⟩ : Shape).Idx → EReal :=
  fun i => softplus (headAt cw tw Mw Mb W bias (i 0) (i 1))

end Arrays

/-! ## The laws -/

/-- A sum over 256 coordinates is the sum over the first 128 plus the sum over the last 128. -/
theorem sum_halves (f : Fin 256 → EReal) : ∑ k : Fin 256, f k = (∑ d : Fin 128, f (lo d)) + ∑ d : Fin 128, f (hi d) := by
  have h := Fin.sum_univ_add (a := 128) (b := 128) (f : Fin (128 + 128) → EReal)
  exact h

/-- Ten terms added one after the other onto zero are their sum. -/
theorem fold_ten (f : Fin 10 → EReal) :
    0 + f 0 + f 1 + f 2 + f 3 + f 4 + f 5 + f 6 + f 7 + f 8 + f 9 = ∑ c : Fin 10, f c := by
  simp only [Fin.sum_univ_castSucc, Fin.sum_univ_zero]
  rfl

/-- A value never differs from itself, so the test both programs make for a not-a-number is never taken. -/
theorem cmp_self (p : CmpFPredicate) (hp : p = .one ∨ p = .une) (d : EReal) : Ideal.cmp p d d = 0#1 := by
  rcases hp with rfl | rfl <;> simp [Ideal.cmp]

/-- The kernel's spelling of softplus: the guard by an ordered comparison, the negation as a difference from zero. -/
theorem softplus_sub (x : EReal) :
    Scalar.select (Ideal.cmp .one (x - 0) (x - 0)) (x + 0)
        (max x 0 + Ideal.log1p (Ideal.exp (0 - max (x - 0) (-(x - 0))))) = softplus x := by
  rw [cmp_self _ (Or.inl rfl), select_zero, sub_zero, zero_sub]
  rfl

/-- The reference's spelling: the guard by an unordered comparison, the negation proper. -/
theorem softplus_neg (x : EReal) :
    Scalar.select (Ideal.cmp .une (x - 0) (x - 0)) (x + 0)
        (max x 0 + Ideal.log1p (Ideal.exp (-(max (x - 0) (-(x - 0)))))) = softplus x := by
  rw [cmp_self _ (Or.inr rfl), select_zero, sub_zero]
  rfl

/-- The reference's pre-activation, one sum over all 256 stacked coordinates and then the bias, is the kernel's: the
    two halves summed apart, the bias joined to the second. -/
theorem pre_stacked (cw : Fin 10 → Fin 128 → EReal) (tw : Fin 128 → EReal) (A B : Fin 128 → Fin 256 → EReal)
    (mb : Fin 256 → EReal) (st : Fin 256 → EReal) (w : Fin 256 → EReal) (c : Fin 10) (e : Fin 256)
    (hlo : ∀ d, st (lo d) * w (lo d) = cw c d * A d e) (hhi : ∀ d, st (hi d) * w (hi d) = tw d * B d e) :
    (∑ k : Fin 256, st k * w k) + mb e = pre cw tw A B mb c e := by
  unfold pre
  rw [sum_halves, add_assoc]
  simp only [hlo, hhi]

end Cert.Spec

end
-- ==== Proof.KernelBody.lean ====
/-
  The kernel body's arithmetic, read one entry at a time at the ideal values.

  For a block of 2048 batch rows the body forms, for every row `p` and hidden coordinate `e`, the base
  `Σ_d tw p d · B d e + mb e`; then for each of the ten contexts the rectified `Σ_d cw p c d · A d e + base`, added one
  after the other onto zero; and from that hidden vector the two heads. Every matrix product is a sum over its one
  contracted coordinate, a change of float format is the identity, and a slice of one context followed by dropping
  its unit axis reads the block at that context.
-/
import proofs.«173438_j84894323573021_1_alg».proof.Proof.Gen.KernelIdeal.Skeleton
import proofs.«173438_j84894323573021_1_alg».proof.Proof.LibDot
import proofs.«173438_j84894323573021_1_alg».proof.Proof.Spec
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The zero word of the body's scalar constants is the number zero. -/
theorem zero_word : (Scalar.ofBits .f32 0x00000000#32 : Ideal .f32) = (0 : EReal) := Ideal.ofBits_zero_f32

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Context `k` of a block, cut out along the context axis and its unit axis dropped, read at row `p`, feature `d`. -/
theorem ctx_apply (o : Nat) (X : FVec Ideal S2048x10x128 .bf16) (hs : S2048x10x128.Slices ![0, o, 0] S2048x1x128)
    (hc : S2048x1x128.ShapeCasts S2048x128) (k : Fin 10) (hk : k.val = o) (p : Fin 2048) (d : Fin 128) :
    shapeCast S2048x128 (extractStridedSlice S2048x1x128 ![0, o, 0] X hs) hc (ix2 p d) = X (ix3 p k d) := by
  rw [shapeCast_a1b_ab_apply]
  exact slice3_axis1_apply o X hs p 0 d k (by rw [hk]; rfl)

/-- One context's term: the rectified sum over the features plus the base. -/
theorem ctx_term (o : Nat) (k : Fin 10) (hk : k.val = o) (X : FVec Ideal S2048x10x128 .bf16)
    (hs : S2048x10x128.Slices ![0, o, 0] S2048x1x128) (hc : S2048x1x128.ShapeCasts S2048x128)
    (A : FVec Ideal S128x256 .bf16) (hA : S128x256.ShapeCasts S128x256) (base : FVec Ideal S2048x256 .f32) (z : Ideal .f32)
    (p : Fin 2048) (e : Fin 256) :
    maximumf (addf (matmul dot_S2048x128_S128x256_S2048x256_1_0_0_1_n_n none
        (shapeCast S2048x128 (extractStridedSlice S2048x1x128 ![0, o, 0] X hs) hc : FVec Ideal S2048x128 .bf16)
        (shapeCast S128x256 A hA : FVec Ideal S128x256 .bf16)
        (constant S2048x256 .f32 0x00000000#32)) base) (broadcast S2048x256 z) (ix2 p e)
      = max ((∑ d : Fin 128, X (ix3 p k d) * A (ix2 d e)) + base (ix2 p e)) z := by
  rw [maximumf_apply, addf_apply, broadcast_apply, LibDot.matmul_10_zero_apply _ rfl rfl rfl rfl rfl rfl]
  simp only [ctx_apply o X hs hc k hk, shapeCast_self]

/-- The base: the target embedding's product with its half of the weight, plus the bias row. -/
theorem base_apply (v0 : Vec Ideal S2048x128 .bf16) (v2 : Vec Ideal S128x256 .bf16) (v5 : Vec Ideal S1x256 .f32)
    (p : Fin 2048) (e : Fin 256) :
    k0_pay2 (F := Ideal) v0 v2 v5 (ix2 p e) = (∑ d : Fin 128, v0 (ix2 p d) * v2 (ix2 d e)) + v5 (ix2 (0 : Fin 1) e) := by
  unfold k0_pay2
  simp only [shapeCast_self]
  rw [addf_apply, LibDot.matmul_10_zero_apply _ rfl rfl rfl rfl rfl rfl, broadcastTo_1b_ab_apply]

/-- The block as loaded, its cast onto its own shape dropped. -/
theorem pay3_eq (v9 : Vec Ideal S2048x10x128 .bf16) : k0_pay3 (F := Ideal) v9 = v9 := by
  unfold k0_pay3; exact shapeCast_self _ _

/-- Context 7 of the block. -/
theorem pay7_apply (v10 : FVec Ideal S2048x10x128 .bf16) (p : Fin 2048) (d : Fin 128) :
    k0_pay7 (F := Ideal) v10 (ix2 p d) = v10 (ix3 p 7 d) := by
  unfold k0_pay7
  exact ctx_apply 7 v10 _ _ 7 rfl p d

/-- A context's sum over the features plus the base, before it is rectified. -/
theorem ctx_lin (o : Nat) (k : Fin 10) (hk : k.val = o) (X : FVec Ideal S2048x10x128 .bf16)
    (hs : S2048x10x128.Slices ![0, o, 0] S2048x1x128) (hc : S2048x1x128.ShapeCasts S2048x128)
    (A : FVec Ideal S128x256 .bf16) (hA : S128x256.ShapeCasts S128x256) (base : FVec Ideal S2048x256 .f32)
    (p : Fin 2048) (e : Fin 256) :
    addf (matmul dot_S2048x128_S128x256_S2048x256_1_0_0_1_n_n none
        (shapeCast S2048x128 (extractStridedSlice S2048x1x128 ![0, o, 0] X hs) hc : FVec Ideal S2048x128 .bf16)
        (shapeCast S128x256 A hA : FVec Ideal S128x256 .bf16)
        (constant S2048x256 .f32 0x00000000#32)) base (ix2 p e)
      = (∑ d : Fin 128, X (ix3 p k d) * A (ix2 d e)) + base (ix2 p e) := by
  rw [addf_apply, LibDot.matmul_10_zero_apply _ rfl rfl rfl rfl rfl rfl]
  simp only [ctx_apply o X hs hc k hk, shapeCast_self]

/-- The same for a left operand already cut to one context. -/
theorem row_term (Y : FVec Ideal S2048x128 .bf16) (A : FVec Ideal S128x256 .bf16) (hA : S128x256.ShapeCasts S128x256)
    (base : FVec Ideal S2048x256 .f32) (z : Ideal .f32) (p : Fin 2048) (e : Fin 256) :
    maximumf (addf (matmul dot_S2048x128_S128x256_S2048x256_1_0_0_1_n_n none Y
        (shapeCast S128x256 A hA : FVec Ideal S128x256 .bf16) (constant S2048x256 .f32 0x00000000#32)) base)
        (broadcast S2048x256 z) (ix2 p e)
      = max ((∑ d : Fin 128, Y (ix2 p d) * A (ix2 d e)) + base (ix2 p e)) z := by
  rw [maximumf_apply, addf_apply, broadcast_apply, LibDot.matmul_10_zero_apply _ rfl rfl rfl rfl rfl rfl]
  simp only [shapeCast_self]

/-- Contexts 0 and 1, added onto zero. -/
theorem pay4_apply (v0 : Vec Ideal S2048x128 .bf16) (v2 : Vec Ideal S128x256 .bf16) (v5 : Vec Ideal S1x256 .f32)
    (v9 : Vec Ideal S2048x10x128 .bf16) (v14 v23 : Vec Ideal S128x256 .bf16) (p : Fin 2048) (e : Fin 256) :
    k0_pay4 (F := Ideal) v0 v2 v5 v9 v14 v23 (ix2 p e)
      = 0 + max ((∑ d : Fin 128, v9 (ix3 p 0 d) * v14 (ix2 d e)) + k0_pay2 (F := Ideal) v0 v2 v5 (ix2 p e)) 0
          + max ((∑ d : Fin 128, v9 (ix3 p 1 d) * v23 (ix2 d e)) + k0_pay2 (F := Ideal) v0 v2 v5 (ix2 p e)) 0 := by
  unfold k0_pay4
  simp only [pay3_eq]
  rw [addf_apply, addf_apply, broadcast_apply, ctx_term 0 0 rfl, ctx_term 1 1 rfl, zero_word]

/-- Context 2, not yet rectified. -/
theorem pay5_apply (v0 : Vec Ideal S2048x128 .bf16) (v2 : Vec Ideal S128x256 .bf16) (v5 : Vec Ideal S1x256 .f32)
    (v9 : Vec Ideal S2048x10x128 .bf16) (v32 : Vec Ideal S128x256 .bf16) (p : Fin 2048) (e : Fin 256) :
    k0_pay5 (F := Ideal) v0 v2 v5 v9 v32 (ix2 p e)
      = (∑ d : Fin 128, v9 (ix3 p 2 d) * v32 (ix2 d e)) + k0_pay2 (F := Ideal) v0 v2 v5 (ix2 p e) := by
  unfold k0_pay5
  simp only [pay3_eq]
  rw [ctx_lin 2 2 rfl]

/-- Context 2 rectified and contexts 3 to 6, added onto what came before. -/
theorem pay6_apply (v8 : FVec Ideal S2048x256 .f32) (v10 : FVec Ideal S2048x10x128 .bf16) (v29 v35 : FVec Ideal S2048x256 .f32)
    (z : Ideal .f32) (v41 v50 v59 v68 : Vec Ideal S128x256 .bf16) (p : Fin 2048) (e : Fin 256) :
    k0_pay6 (F := Ideal) v8 v10 v29 v35 z v41 v50 v59 v68 (ix2 p e)
      = v29 (ix2 p e) + max (v35 (ix2 p e)) z
          + max ((∑ d : Fin 128, v10 (ix3 p 3 d) * v41 (ix2 d e)) + v8 (ix2 p e)) 0
          + max ((∑ d : Fin 128, v10 (ix3 p 4 d) * v50 (ix2 d e)) + v8 (ix2 p e)) 0
          + max ((∑ d : Fin 128, v10 (ix3 p 5 d) * v59 (ix2 d e)) + v8 (ix2 p e)) 0
          + max ((∑ d : Fin 128, v10 (ix3 p 6 d) * v68 (ix2 d e)) + v8 (ix2 p e)) 0 := by
  unfold k0_pay6
  rw [addf_apply, addf_apply, addf_apply, addf_apply, addf_apply, maximumf_apply, broadcast_apply,
    ctx_term 3 3 rfl, ctx_term 4 4 rfl, ctx_term 5 5 rfl, ctx_term 6 6 rfl, zero_word]

/-- Contexts 7 to 9, added onto what came before; the change of float format at the end is the identity. -/
theorem pay8_apply (v8 : FVec Ideal S2048x256 .f32) (v10 : FVec Ideal S2048x10x128 .bf16) (v74 : FVec Ideal S2048x256 .f32)
    (v76 : FVec Ideal S2048x128 .bf16) (v77 v86 v95 : Vec Ideal S128x256 .bf16) (p : Fin 2048) (e : Fin 256) :
    k0_pay8 (F := Ideal) v8 v10 v74 v76 v77 v86 v95 (ix2 p e)
      = v74 (ix2 p e)
          + max ((∑ d : Fin 128, v76 (ix2 p d) * v77 (ix2 d e)) + v8 (ix2 p e)) 0
          + max ((∑ d : Fin 128, v10 (ix3 p 8 d) * v86 (ix2 d e)) + v8 (ix2 p e)) 0
          + max ((∑ d : Fin 128, v10 (ix3 p 9 d) * v95 (ix2 d e)) + v8 (ix2 p e)) 0 := by
  unfold k0_pay8
  rw [truncf_apply, addf_apply, addf_apply, addf_apply, row_term, ctx_term 8 8 rfl, ctx_term 9 9 rfl, zero_word]

/-- THE HIDDEN VECTOR of row `p` of a block, as the body's payloads compose it, is the row specification's. -/
theorem hidden_apply (x0 : Vec Ideal S2048x10x128 .bf16) (x1 : Vec Ideal S2048x128 .bf16) (x2 x3 : Vec Ideal S128x256 .bf16)
    (x4 : Vec Ideal S1x256 .f32) (p : Fin 2048) (e : Fin 256) :
    k0_pay8 (F := Ideal) (k0_pay2 x1 x3 x4) (k0_pay3 x0)
        (k0_pay6 (k0_pay2 x1 x3 x4) (k0_pay3 x0) (k0_pay4 x1 x3 x4 x0 x2 x2) (k0_pay5 x1 x3 x4 x0 x2)
          (Scalar.ofBits .f32 0x00000000#32) x2 x2 x2 x2)
        (k0_pay7 (k0_pay3 x0)) x2 x2 x2 (ix2 p e)
      = Spec.hid (fun c d => x0 (ix3 p c d)) (fun d => x1 (ix2 p d)) (fun d e => x2 (ix2 d e)) (fun d e => x3 (ix2 d e))
          (fun e => x4 (ix2 (0 : Fin 1) e)) e := by
  rw [pay8_apply, pay6_apply, pay4_apply, pay5_apply]
  simp only [pay7_apply, pay3_eq, base_apply, zero_word]
  unfold Spec.hid Spec.pre
  rw [← Spec.fold_ten]

/-- A head of the hidden vector: the product with the head's weight block plus its bias row. -/
theorem pay9_apply (v8 : FVec Ideal S2048x256 .f32) (v10 : FVec Ideal S2048x10x128 .bf16) (v74 : FVec Ideal S2048x256 .f32)
    (v76 : FVec Ideal S2048x128 .bf16) (v77 v86 v95 : Vec Ideal S128x256 .bf16) (v103 : Vec Ideal S256x128 .bf16)
    (v106 : Vec Ideal S1x128 .f32) (p : Fin 2048) (j : Fin 128) :
    k0_pay9 (F := Ideal) v8 v10 v74 v76 v77 v86 v95 v103 v106 (ix2 p j)
      = (∑ k : Fin 256, k0_pay8 (F := Ideal) v8 v10 v74 v76 v77 v86 v95 (ix2 p k) * v103 (ix2 k j))
          + v106 (ix2 (0 : Fin 1) j) := by
  unfold k0_pay9
  simp only [shapeCast_self]
  rw [addf_apply, LibDot.matmul_10_zero_apply _ rfl rfl rfl rfl rfl rfl, broadcastTo_1b_ab_apply]

theorem pay10_apply (v8 : FVec Ideal S2048x256 .f32) (v10 : FVec Ideal S2048x10x128 .bf16) (v74 : FVec Ideal S2048x256 .f32)
    (v76 : FVec Ideal S2048x128 .bf16) (v77 v86 v95 : Vec Ideal S128x256 .bf16) (v110 : Vec Ideal S256x128 .bf16)
    (v113 : Vec Ideal S1x128 .f32) (p : Fin 2048) (j : Fin 128) :
    k0_pay10 (F := Ideal) v8 v10 v74 v76 v77 v86 v95 v110 v113 (ix2 p j)
      = (∑ k : Fin 256, k0_pay8 (F := Ideal) v8 v10 v74 v76 v77 v86 v95 (ix2 p k) * v110 (ix2 k j))
          + v113 (ix2 (0 : Fin 1) j) := by
  unfold k0_pay10
  simp only [shapeCast_self]
  rw [addf_apply, LibDot.matmul_10_zero_apply _ rfl rfl rfl rfl rfl rfl, broadcastTo_1b_ab_apply]

/-- The body's softplus, entry by entry. -/
theorem pay1_apply (v116 : FVec Ideal S2048x128 .f32) (i : S2048x128.Idx) :
    k0_pay1 (F := Ideal) v116 i = Spec.softplus (v116 i) := by
  unfold k0_pay1
  show Scalar.select
      (Ideal.cmp .one (v116 i - Ideal.ofBits .f32 0x00000000#32) (v116 i - Ideal.ofBits .f32 0x00000000#32))
      (v116 i + Ideal.ofBits .f32 0x00000000#32)
      (max (v116 i) (Ideal.ofBits .f32 0x00000000#32) + Ideal.log1p (Ideal.exp (Ideal.ofBits .f32 0x00000000#32
        - max (v116 i - Ideal.ofBits .f32 0x00000000#32) (-(v116 i - Ideal.ofBits .f32 0x00000000#32))))) = _
  rw [Ideal.ofBits_zero_f32]
  exact Spec.softplus_sub _

end Cert.KernelIdeal.Body

end
-- ==== Proof.KernelHost.lean ====
/-
  What the region finds and what its body leaves, at the ideal values.

  Before the region the host gathers the embeddings, cuts the 256 × 256 weight into its two column halves and transposes
  each, transposes the two head weights, and gives each bias a leading unit axis; each change of float format is the
  identity. The region's grid has eight points; point `t` works on batch rows `2048 t` to `2048 t + 2047`: its blocks
  of the two embedding arrays are those rows, and the weight and bias operands are staged whole at every point. At an
  entry, what the body stores is the row specification of the blocks.
-/
import proofs.«173438_j84894323573021_1_alg».proof.Proof.Gen.KernelIdeal.Value
import proofs.«173438_j84894323573021_1_alg».proof.Proof.KernelBody
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The gathered embeddings -/

/-- The target embeddings: row `b` is the table's row at the target id, a negative id counted from the end. -/
def twK (c : Dev nD) : FVec Ideal S16384x128 .f32 :=
  Host.gather gather_S100000x128_S16384x1_S16384x128_1_0_n_n_0_1_1128 (m ((c : Thread nD τ).loc main_arg2))
    (broadcastInDim S16384x1 ![0] bcast_S16384_S16384x1_0
      (select (cmpi .slt (m ((c : Thread nD τ).loc main_arg0)) (broadcastInDim S16384 ![] bcast_S_S16384 (constantI S_ 32 0#32)))
        (addi (m ((c : Thread nD τ).loc main_arg0)) (broadcastInDim S16384 ![] bcast_S_S16384 (constantI S_ 32 100000#32)))
        (m ((c : Thread nD τ).loc main_arg0))))

/-- The context embeddings: entry `(b, c)` is the table's row at context id `(b, c)`. -/
def cwK (c : Dev nD) : FVec Ideal S16384x10x128 .f32 :=
  Host.gather gather_S100000x128_S16384x10x1_S16384x10x128_2_0_n_n_0_2_1128 (m ((c : Thread nD τ).loc main_arg2))
    (broadcastInDim S16384x10x1 ![0, 1] bcast_S16384x10_S16384x10x1_0_1
      (select (cmpi .slt (m ((c : Thread nD τ).loc main_arg1)) (broadcastInDim S16384x10 ![] bcast_S_S16384x10 (constantI S_ 32 0#32)))
        (addi (m ((c : Thread nD τ).loc main_arg1)) (broadcastInDim S16384x10 ![] bcast_S_S16384x10 (constantI S_ 32 100000#32)))
        (m ((c : Thread nD τ).loc main_arg1))))

/-! ## The arrays the region finds -/

theorem v14_eq (c : Dev nD) : (V m c main_v14 : S16384x128.Idx → EReal) = twK m c := by
  dsimp only [Gen.V, Gen.hostOps0]; after_results <;> rfl

theorem v15_eq (c : Dev nD) : (V m c main_v15 : S16384x10x128.Idx → EReal) = cwK m c := by
  dsimp only [Gen.V, Gen.hostOps0]; after_results <;> rfl

/-- The context half of the weight, transposed: entry `(d, e)` is the weight's `(e, d)`. -/
theorem v18_apply (c : Dev nD) (d : Fin 128) (e : Fin 256) :
    (V m c main_v18 : S128x256.Idx → EReal) (ix2 d e) = (m ((c : Thread nD τ).loc main_arg3)) (ix2 e (Spec.lo d)) := by
  have h : (V m c main_v18 : S128x256.Idx → EReal) = truncf (F := Ideal) .bf16 (transpose S128x256 [1, 0]
      (extractStridedSlice S256x128 ![0, 0] (m ((c : Thread nD τ).loc main_arg3)) slices_S256x256_S256x128_0_0)
      transposes_S256x128_S128x256_1_0) bitsLt_bf16_f32 := by
    dsimp only [Gen.V, Gen.hostOps0]; after_results <;> rfl
  rw [h, truncf_apply, transpose_ix2_apply]
  exact slice2_axis1_apply 0 _ _ e d (Spec.lo d) (by show d.val = 0 + d.val; omega)

/-- The target half of the weight, transposed: entry `(d, e)` is the weight's `(e, 128 + d)`. -/
theorem v21_apply (c : Dev nD) (d : Fin 128) (e : Fin 256) :
    (V m c main_v21 : S128x256.Idx → EReal) (ix2 d e) = (m ((c : Thread nD τ).loc main_arg3)) (ix2 e (Spec.hi d)) := by
  have h : (V m c main_v21 : S128x256.Idx → EReal) = truncf (F := Ideal) .bf16 (transpose S128x256 [1, 0]
      (extractStridedSlice S256x128 ![0, 128] (m ((c : Thread nD τ).loc main_arg3)) slices_S256x256_S256x128_0_128)
      transposes_S256x128_S128x256_1_0) bitsLt_bf16_f32 := by
    dsimp only [Gen.V, Gen.hostOps0]; after_results <;> rfl
  rw [h, truncf_apply, transpose_ix2_apply]
  exact slice2_axis1_apply 128 _ _ e d (Spec.hi d) rfl

/-- The mean head's weight, transposed. -/
theorem v23_apply (c : Dev nD) (k : Fin 256) (j : Fin 128) :
    (V m c main_v23 : S256x128.Idx → EReal) (ix2 k j) = (m ((c : Thread nD τ).loc main_arg5)) (ix2 j k) := by
  have h : (V m c main_v23 : S256x128.Idx → EReal) = truncf (F := Ideal) .bf16 (transpose S256x128 [1, 0] (m ((c : Thread nD τ).loc main_arg5))
      transposes_S128x256_S256x128_1_0) bitsLt_bf16_f32 := by
    dsimp only [Gen.V, Gen.hostOps0]; after_results <;> rfl
  rw [h, truncf_apply, transpose_ix2_apply]

/-- The scale head's weight, transposed. -/
theorem v25_apply (c : Dev nD) (k : Fin 256) (j : Fin 128) :
    (V m c main_v25 : S256x128.Idx → EReal) (ix2 k j) = (m ((c : Thread nD τ).loc main_arg7)) (ix2 j k) := by
  have h : (V m c main_v25 : S256x128.Idx → EReal) = truncf (F := Ideal) .bf16 (transpose S256x128 [1, 0] (m ((c : Thread nD τ).loc main_arg7))
      transposes_S128x256_S256x128_1_0) bitsLt_bf16_f32 := by
    dsimp only [Gen.V, Gen.hostOps0]; after_results <;> rfl
  rw [h, truncf_apply, transpose_ix2_apply]

/-- The hidden layer's bias, given a leading unit axis. -/
theorem v26_apply (c : Dev nD) (u : Fin 1) (e : Fin 256) :
    (V m c main_v26 : S1x256.Idx → EReal) (ix2 u e) = (m ((c : Thread nD τ).loc main_arg4)) (ix1 e) := by
  have h : (V m c main_v26 : S1x256.Idx → EReal) = shapeCast (α := EReal) S1x256 (m ((c : Thread nD τ).loc main_arg4)) shapeCasts_S256_S1x256 := by
    dsimp only [Gen.V, Gen.hostOps0]; after_results <;> rfl
  rw [h]
  exact shapeCast_a_1a_apply _ _ u e

/-- The mean head's bias, given a leading unit axis. -/
theorem v27_apply (c : Dev nD) (u : Fin 1) (e : Fin 128) :
    (V m c main_v27 : S1x128.Idx → EReal) (ix2 u e) = (m ((c : Thread nD τ).loc main_arg6)) (ix1 e) := by
  have h : (V m c main_v27 : S1x128.Idx → EReal) = shapeCast (α := EReal) S1x128 (m ((c : Thread nD τ).loc main_arg6)) shapeCasts_S128_S1x128 := by
    dsimp only [Gen.V, Gen.hostOps0]; after_results <;> rfl
  rw [h]
  exact shapeCast_a_1a_apply _ _ u e

/-- The scale head's bias, given a leading unit axis. -/
theorem v28_apply (c : Dev nD) (u : Fin 1) (e : Fin 128) :
    (V m c main_v28 : S1x128.Idx → EReal) (ix2 u e) = (m ((c : Thread nD τ).loc main_arg8)) (ix1 e) := by
  have h : (V m c main_v28 : S1x128.Idx → EReal) = shapeCast (α := EReal) S1x128 (m ((c : Thread nD τ).loc main_arg8)) shapeCasts_S128_S1x128 := by
    dsimp only [Gen.V, Gen.hostOps0]; after_results <;> rfl
  rw [h]
  exact shapeCast_a_1a_apply _ _ u e

/-! ## The two stores, at an entry, over any blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the first output's buffer, at row `p`, column `j`: the mean head of the row's hidden vector. -/
theorem out9_apply (x0 : Vec Ideal S2048x10x128 .bf16) (x1 : Vec Ideal S2048x128 .bf16) (x2 x3 : Vec Ideal S128x256 .bf16)
    (x4 : Vec Ideal S1x256 .f32) (x5 : Vec Ideal S256x128 .bf16) (x6 : Vec Ideal S1x128 .f32) (x7 : Vec Ideal S256x128 .bf16)
    (x8 : Vec Ideal S1x128 .f32) (p : Fin 2048) (j : Fin 128) :
    out0_9 (F := Ideal) x0 x1 x2 x3 x4 x5 x6 x7 x8 (ix2 p j)
      = Spec.head (Spec.hid (fun c d => x0 (ix3 p c d)) (fun d => x1 (ix2 p d)) (fun d e => x2 (ix2 d e))
          (fun d e => x3 (ix2 d e)) (fun e => x4 (ix2 (0 : Fin 1) e))) (fun k j => x5 (ix2 k j))
          (fun j => x6 (ix2 (0 : Fin 1) j)) j := by
  unfold out0_9
  rw [View.canon_unit_zero hz2]
  simp only [View.ld_unit_zero (S := S2048x128) hz2, View.ld_unit_zero (S := S128x256) hz2,
    View.ld_unit_zero (S := S1x256) hz2, View.ld_unit_zero (S := S2048x10x128) hz3,
    View.ld_unit_zero (S := S256x128) hz2, View.ld_unit_zero (S := S1x128) hz2]
  rw [Body.pay9_apply]
  unfold Spec.head
  simp only [Body.hidden_apply]

/-- What the body leaves in the second output's buffer: softplus of the scale head. -/
theorem out10_apply (x0 : Vec Ideal S2048x10x128 .bf16) (x1 : Vec Ideal S2048x128 .bf16) (x2 x3 : Vec Ideal S128x256 .bf16)
    (x4 : Vec Ideal S1x256 .f32) (x5 : Vec Ideal S256x128 .bf16) (x6 : Vec Ideal S1x128 .f32) (x7 : Vec Ideal S256x128 .bf16)
    (x8 : Vec Ideal S1x128 .f32) (p : Fin 2048) (j : Fin 128) :
    out0_10 (F := Ideal) x0 x1 x2 x3 x4 x5 x6 x7 x8 (ix2 p j)
      = Spec.softplus (Spec.head (Spec.hid (fun c d => x0 (ix3 p c d)) (fun d => x1 (ix2 p d)) (fun d e => x2 (ix2 d e))
          (fun d e => x3 (ix2 d e)) (fun e => x4 (ix2 (0 : Fin 1) e))) (fun k j => x7 (ix2 k j))
          (fun j => x8 (ix2 (0 : Fin 1) j)) j) := by
  unfold out0_10
  rw [View.canon_unit_zero hz2]
  simp only [View.ld_unit_zero (S := S2048x128) hz2, View.ld_unit_zero (S := S128x256) hz2,
    View.ld_unit_zero (S := S1x256) hz2, View.ld_unit_zero (S := S2048x10x128) hz3,
    View.ld_unit_zero (S := S256x128) hz2, View.ld_unit_zero (S := S1x128) hz2]
  rw [Body.pay1_apply, Body.pay10_apply]
  unfold Spec.head
  simp only [Body.hidden_apply]

/-! ## The windows' blocks at a point -/

/-- The printed index maps, decided over the eight points: the two embedding windows and the two outputs move with the
    point along the batch axis; the weight and bias windows stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem t_lt (t : Fin cfg0.N) : t.val < 8 := lt_of_lt_of_eq t.isLt N_0

/-- Batch row `2048 t + p`: row `p` of point `t`'s block. -/
def row (t : Fin cfg0.N) (p : Fin 2048) : Fin 16384 := ⟨t.val * 2048 + p.val, by have := t_lt t; omega⟩

/-- Point `t`'s block of the context embeddings is their rows `2048 t …`. -/
theorem blk0 (c : Dev nD) (t : Fin cfg0.N) (p : Fin 2048) (cc : Fin 10) (d : Fin 128) :
    iblk m c 0 t (ix3 p cc d) = cwK m c (ix3 (row t p) cc d) := by
  obtain ⟨e00, e01, e02, -⟩ := idx_facts t
  show V m c main_v15 (((cfg0.win 0).blk t).view.emb (ix3 p cc d)) = _
  rw [v15_eq]
  exact congrArg (cwK m c) (funext fun a => Fin.ext (by
    match a with
    | ⟨0, _⟩ => show win0_0.index t (0 : Fin 3) * 2048 + 1 * p.val = t.val * 2048 + p.val; omega
    | ⟨1, _⟩ => show win0_0.index t (1 : Fin 3) * 10 + 1 * cc.val = cc.val; omega
    | ⟨2, _⟩ => show win0_0.index t (2 : Fin 3) * 128 + 1 * d.val = d.val; omega))

/-- Point `t`'s block of the target embeddings is their rows `2048 t …`. -/
theorem blk1 (c : Dev nD) (t : Fin cfg0.N) (p : Fin 2048) (d : Fin 128) :
    iblk m c 1 t (ix2 p d) = twK m c (ix2 (row t p) d) := by
  obtain ⟨-, -, -, e10, e11, -⟩ := idx_facts t
  show V m c main_v14 (((cfg0.win 1).blk t).view.emb (ix2 p d)) = _
  rw [v14_eq]
  exact congrArg (twK m c) (funext fun a => Fin.ext (by
    match a with
    | ⟨0, _⟩ => show win0_1.index t (0 : Fin 2) * 2048 + 1 * p.val = t.val * 2048 + p.val; omega
    | ⟨1, _⟩ => show win0_1.index t (1 : Fin 2) * 128 + 1 * d.val = d.val; omega))

/-- A window staged whole: its one block, at any point, is the array. -/
theorem blk2 (c : Dev nD) (t : Fin cfg0.N) (d : Fin 128) (e : Fin 256) :
    iblk m c 2 t (ix2 d e) = (m ((c : Thread nD τ).loc main_arg3)) (ix2 e (Spec.lo d)) := by
  obtain ⟨-, -, -, -, -, e0, e1, -⟩ := idx_facts t
  show V m c main_v18 (((cfg0.win 2).blk t).view.emb (ix2 d e)) = _
  rw [show ((cfg0.win 2).blk t).view.emb (ix2 d e) = (ix2 d e : S128x256.Idx) from funext fun a => Fin.ext (by
    match a with
    | ⟨0, _⟩ => show win0_2.index t (0 : Fin 2) * 128 + 1 * d.val = d.val; omega
    | ⟨1, _⟩ => show win0_2.index t (1 : Fin 2) * 256 + 1 * e.val = e.val; omega)]
  exact v18_apply m c d e

theorem blk3 (c : Dev nD) (t : Fin cfg0.N) (d : Fin 128) (e : Fin 256) :
    iblk m c 3 t (ix2 d e) = (m ((c : Thread nD τ).loc main_arg3)) (ix2 e (Spec.hi d)) := by
  obtain ⟨-, -, -, -, -, -, -, e0, e1, -⟩ := idx_facts t
  show V m c main_v21 (((cfg0.win 3).blk t).view.emb (ix2 d e)) = _
  rw [show ((cfg0.win 3).blk t).view.emb (ix2 d e) = (ix2 d e : S128x256.Idx) from funext fun a => Fin.ext (by
    match a with
    | ⟨0, _⟩ => show win0_3.index t (0 : Fin 2) * 128 + 1 * d.val = d.val; omega
    | ⟨1, _⟩ => show win0_3.index t (1 : Fin 2) * 256 + 1 * e.val = e.val; omega)]
  exact v21_apply m c d e

theorem blk4 (c : Dev nD) (t : Fin cfg0.N) (u : Fin 1) (e : Fin 256) :
    iblk m c 4 t (ix2 u e) = (m ((c : Thread nD τ).loc main_arg4)) (ix1 e) := by
  obtain ⟨-, -, -, -, -, -, -, -, -, e0, e1, -⟩ := idx_facts t
  show V m c main_v26 (((cfg0.win 4).blk t).view.emb (ix2 u e)) = _
  rw [show ((cfg0.win 4).blk t).view.emb (ix2 u e) = (ix2 u e : S1x256.Idx) from funext fun a => Fin.ext (by
    match a with
    | ⟨0, _⟩ => show win0_4.index t (0 : Fin 2) * 1 + 1 * u.val = u.val; omega
    | ⟨1, _⟩ => show win0_4.index t (1 : Fin 2) * 256 + 1 * e.val = e.val; omega)]
  exact v26_apply m c u e

theorem blk5 (c : Dev nD) (t : Fin cfg0.N) (k : Fin 256) (j : Fin 128) :
    iblk m c 5 t (ix2 k j) = (m ((c : Thread nD τ).loc main_arg5)) (ix2 j k) := by
  obtain ⟨-, -, -, -, -, -, -, -, -, -, -, e0, e1, -⟩ := idx_facts t
  show V m c main_v23 (((cfg0.win 5).blk t).view.emb (ix2 k j)) = _
  rw [show ((cfg0.win 5).blk t).view.emb (ix2 k j) = (ix2 k j : S256x128.Idx) from funext fun a => Fin.ext (by
    match a with
    | ⟨0, _⟩ => show win0_5.index t (0 : Fin 2) * 256 + 1 * k.val = k.val; omega
    | ⟨1, _⟩ => show win0_5.index t (1 : Fin 2) * 128 + 1 * j.val = j.val; omega)]
  exact v23_apply m c k j

theorem blk6 (c : Dev nD) (t : Fin cfg0.N) (u : Fin 1) (j : Fin 128) :
    iblk m c 6 t (ix2 u j) = (m ((c : Thread nD τ).loc main_arg6)) (ix1 j) := by
  obtain ⟨-, -, -, -, -, -, -, -, -, -, -, -, -, e0, e1, -⟩ := idx_facts t
  show V m c main_v27 (((cfg0.win 6).blk t).view.emb (ix2 u j)) = _
  rw [show ((cfg0.win 6).blk t).view.emb (ix2 u j) = (ix2 u j : S1x128.Idx) from funext fun a => Fin.ext (by
    match a with
    | ⟨0, _⟩ => show win0_6.index t (0 : Fin 2) * 1 + 1 * u.val = u.val; omega
    | ⟨1, _⟩ => show win0_6.index t (1 : Fin 2) * 128 + 1 * j.val = j.val; omega)]
  exact v27_apply m c u j

theorem blk7 (c : Dev nD) (t : Fin cfg0.N) (k : Fin 256) (j : Fin 128) :
    iblk m c 7 t (ix2 k j) = (m ((c : Thread nD τ).loc main_arg7)) (ix2 j k) := by
  obtain ⟨-, -, -, -, -, -, -, -, -, -, -, -, -, -, -, e0, e1, -⟩ := idx_facts t
  show V m c main_v25 (((cfg0.win 7).blk t).view.emb (ix2 k j)) = _
  rw [show ((cfg0.win 7).blk t).view.emb (ix2 k j) = (ix2 k j : S256x128.Idx) from funext fun a => Fin.ext (by
    match a with
    | ⟨0, _⟩ => show win0_7.index t (0 : Fin 2) * 256 + 1 * k.val = k.val; omega
    | ⟨1, _⟩ => show win0_7.index t (1 : Fin 2) * 128 + 1 * j.val = j.val; omega)]
  exact v25_apply m c k j

theorem blk8 (c : Dev nD) (t : Fin cfg0.N) (u : Fin 1) (j : Fin 128) :
    iblk m c 8 t (ix2 u j) = (m ((c : Thread nD τ).loc main_arg8)) (ix1 j) := by
  obtain ⟨-, -, -, -, -, -, -, -, -, -, -, -, -, -, -, -, -, e0, e1, -⟩ := idx_facts t
  show V m c main_v28 (((cfg0.win 8).blk t).view.emb (ix2 u j)) = _
  rw [show ((cfg0.win 8).blk t).view.emb (ix2 u j) = (ix2 u j : S1x128.Idx) from funext fun a => Fin.ext (by
    match a with
    | ⟨0, _⟩ => show win0_8.index t (0 : Fin 2) * 1 + 1 * u.val = u.val; omega
    | ⟨1, _⟩ => show win0_8.index t (1 : Fin 2) * 128 + 1 * j.val = j.val; omega)]
  exact v28_apply m c u j

/-! ## What each point writes back, and the arrays after the run -/

/-- The row specification depends on its operands only through their entries. -/
theorem head_hid_congr {cw cw' : Fin 10 → Fin 128 → EReal} {tw tw' : Fin 128 → EReal} {A A' B B' : Fin 128 → Fin 256 → EReal}
    {mb mb' : Fin 256 → EReal} {W W' : Fin 256 → Fin 128 → EReal} {bias bias' : Fin 128 → EReal} {j j' : Fin 128}
    (h0 : ∀ c d, cw c d = cw' c d) (h1 : ∀ d, tw d = tw' d) (h2 : ∀ d e, A d e = A' d e) (h3 : ∀ d e, B d e = B' d e)
    (h4 : ∀ e, mb e = mb' e) (h5 : ∀ k j, W k j = W' k j) (h6 : ∀ j, bias j = bias' j) (hj : j = j') :
    Spec.head (Spec.hid cw tw A B mb) W bias j = Spec.head (Spec.hid cw' tw' A' B' mb') W' bias' j' := by
  obtain rfl : cw = cw' := funext fun c => funext fun d => h0 c d
  obtain rfl : tw = tw' := funext h1
  obtain rfl : A = A' := funext fun d => funext fun e => h2 d e
  obtain rfl : B = B' := funext fun d => funext fun e => h3 d e
  obtain rfl : mb = mb' := funext h4
  obtain rfl : W = W' := funext fun k => funext fun j => h5 k j
  obtain rfl : bias = bias' := funext h6
  rw [hj]

/-- The first result array: the mean head, of the gathered embeddings and the argument arrays. -/
def muK (c : Dev nD) : S16384x128.Idx → EReal :=
  Spec.mu (cwK m c) (twK m c) (m ((c : Thread nD τ).loc main_arg3)) (m ((c : Thread nD τ).loc main_arg4)) (m ((c : Thread nD τ).loc main_arg5)) (m ((c : Thread nD τ).loc main_arg6))

/-- The second result array: softplus of the scale head. -/
def sigmaK (c : Dev nD) : S16384x128.Idx → EReal :=
  Spec.sigma (cwK m c) (twK m c) (m ((c : Thread nD τ).loc main_arg3)) (m ((c : Thread nD τ).loc main_arg4)) (m ((c : Thread nD τ).loc main_arg7)) (m ((c : Thread nD τ).loc main_arg8))

/-- Entry `y` of an output block at point `t` is entry `(2048 t + y 0, y 1)` of the array. -/
theorem emb9 (t : Fin cfg0.N) (y : S2048x128.Idx) :
    ((cfg0.win 9).blk t).view.emb y = (ix2 (row t (y 0)) (y 1) : S16384x128.Idx) := by
  obtain ⟨-, -, -, -, -, -, -, -, -, -, -, -, -, -, -, -, -, -, -, e0, e1, -⟩ := idx_facts t
  exact funext fun a => Fin.ext (by
    match a with
    | ⟨0, _⟩ => show win0_9.index t (0 : Fin 2) * 2048 + 1 * (y 0).val = t.val * 2048 + (y 0).val; omega
    | ⟨1, _⟩ => show win0_9.index t (1 : Fin 2) * 128 + 1 * (y 1).val = (y 1).val; omega)

theorem emb10 (t : Fin cfg0.N) (y : S2048x128.Idx) :
    ((cfg0.win 10).blk t).view.emb y = (ix2 (row t (y 0)) (y 1) : S16384x128.Idx) := by
  obtain ⟨-, -, -, -, -, -, -, -, -, -, -, -, -, -, -, -, -, -, -, -, -, e0, e1⟩ := idx_facts t
  exact funext fun a => Fin.ext (by
    match a with
    | ⟨0, _⟩ => show win0_10.index t (0 : Fin 2) * 2048 + 1 * (y 0).val = t.val * 2048 + (y 0).val; omega
    | ⟨1, _⟩ => show win0_10.index t (1 : Fin 2) * 128 + 1 * (y 1).val = (y 1).val; omega)

/-- The two stores at any entry of the buffer. -/
theorem out9_at (x0 : Vec Ideal S2048x10x128 .bf16) (x1 : Vec Ideal S2048x128 .bf16) (x2 x3 : Vec Ideal S128x256 .bf16)
    (x4 : Vec Ideal S1x256 .f32) (x5 : Vec Ideal S256x128 .bf16) (x6 : Vec Ideal S1x128 .f32) (x7 : Vec Ideal S256x128 .bf16)
    (x8 : Vec Ideal S1x128 .f32) (y : S2048x128.Idx) :
    out0_9 (F := Ideal) x0 x1 x2 x3 x4 x5 x6 x7 x8 y
      = Spec.head (Spec.hid (fun c d => x0 (ix3 (y 0) c d)) (fun d => x1 (ix2 (y 0) d)) (fun d e => x2 (ix2 d e))
          (fun d e => x3 (ix2 d e)) (fun e => x4 (ix2 (0 : Fin 1) e))) (fun k j => x5 (ix2 k j))
          (fun j => x6 (ix2 (0 : Fin 1) j)) (y 1) := by
  exact (congrArg (out0_9 (F := Ideal) x0 x1 x2 x3 x4 x5 x6 x7 x8) (eq_ix2 y)).trans
    (out9_apply x0 x1 x2 x3 x4 x5 x6 x7 x8 (y 0) (y 1))

theorem out10_at (x0 : Vec Ideal S2048x10x128 .bf16) (x1 : Vec Ideal S2048x128 .bf16) (x2 x3 : Vec Ideal S128x256 .bf16)
    (x4 : Vec Ideal S1x256 .f32) (x5 : Vec Ideal S256x128 .bf16) (x6 : Vec Ideal S1x128 .f32) (x7 : Vec Ideal S256x128 .bf16)
    (x8 : Vec Ideal S1x128 .f32) (y : S2048x128.Idx) :
    out0_10 (F := Ideal) x0 x1 x2 x3 x4 x5 x6 x7 x8 y
      = Spec.softplus (Spec.head (Spec.hid (fun c d => x0 (ix3 (y 0) c d)) (fun d => x1 (ix2 (y 0) d)) (fun d e => x2 (ix2 d e))
          (fun d e => x3 (ix2 d e)) (fun e => x4 (ix2 (0 : Fin 1) e))) (fun k j => x7 (ix2 k j))
          (fun j => x8 (ix2 (0 : Fin 1) j)) (y 1)) := by
  exact (congrArg (out0_10 (F := Ideal) x0 x1 x2 x3 x4 x5 x6 x7 x8) (eq_ix2 y)).trans
    (out10_apply x0 x1 x2 x3 x4 x5 x6 x7 x8 (y 0) (y 1))

/-- The first result at row `b`, column `j`, with the row specification's operands written out. -/
theorem muK_at (c : Dev nD) (b : Fin 16384) (j : Fin 128) :
    muK m c (ix2 b j) = Spec.head (Spec.hid (fun cc d => cwK m c (ix3 b cc d)) (fun d => twK m c (ix2 b d))
      (fun d e => (m ((c : Thread nD τ).loc main_arg3)) (ix2 e (Spec.lo d))) (fun d e => (m ((c : Thread nD τ).loc main_arg3)) (ix2 e (Spec.hi d))) (fun e => (m ((c : Thread nD τ).loc main_arg4)) (ix1 e)))
      (fun k j => (m ((c : Thread nD τ).loc main_arg5)) (ix2 j k)) (fun j => (m ((c : Thread nD τ).loc main_arg6)) (ix1 j)) j := rfl

theorem sigmaK_at (c : Dev nD) (b : Fin 16384) (j : Fin 128) :
    sigmaK m c (ix2 b j) = Spec.softplus (Spec.head (Spec.hid (fun cc d => cwK m c (ix3 b cc d)) (fun d => twK m c (ix2 b d))
      (fun d e => (m ((c : Thread nD τ).loc main_arg3)) (ix2 e (Spec.lo d))) (fun d e => (m ((c : Thread nD τ).loc main_arg3)) (ix2 e (Spec.hi d))) (fun e => (m ((c : Thread nD τ).loc main_arg4)) (ix1 e)))
      (fun k j => (m ((c : Thread nD τ).loc main_arg7)) (ix2 j k)) (fun j => (m ((c : Thread nD τ).loc main_arg8)) (ix1 j)) j) := rfl

end Cert.KernelIdeal.KValue

end
-- ==== Proof.KernelValue.lean ====
/-
  The kernel's two result arrays at the ideal values, as whole-array functions of the arguments.

  What point `t` writes back is rows `2048 t` to `2048 t + 2047` of the row specification applied to the gathered
  embeddings and the argument arrays; the eight blocks tile the 16384 rows, so after the run each result array is that
  function everywhere.
-/
import proofs.«173438_j84894323573021_1_alg».proof.Proof.KernelHost

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- WHAT POINT `t` WRITES BACK to the first result is block `t` of the mean head. -/
theorem flushed9_eq (c : Dev nD) (t : Fin cfg0.N) :
    (dats m 0 c).flushed 9 t = ((cfg0.win 9).blk t).view.read (Elt Ideal) (muK m c) := by
  rw [Value.flushed9]
  funext y
  show out0_9 (iblk m c 0 t) (iblk m c 1 t) (iblk m c 2 t) (iblk m c 3 t) (iblk m c 4 t) (iblk m c 5 t) (iblk m c 6 t)
      (iblk m c 7 t) (iblk m c 8 t) y = muK m c (((cfg0.win 9).blk t).view.emb y)
  refine (out9_at (iblk m c 0 t) (iblk m c 1 t) (iblk m c 2 t) (iblk m c 3 t) (iblk m c 4 t) (iblk m c 5 t)
    (iblk m c 6 t) (iblk m c 7 t) (iblk m c 8 t) y).trans ?_
  rw [emb9 t y]
  refine Eq.trans ?_ (muK_at m c (row t (y 0)) (y 1)).symm
  exact head_hid_congr (fun cc d => blk0 m c t (y 0) cc d) (fun d => blk1 m c t (y 0) d) (fun d e => blk2 m c t d e)
    (fun d e => blk3 m c t d e) (fun e => blk4 m c t 0 e) (fun k j => blk5 m c t k j) (fun j => blk6 m c t 0 j) rfl

/-- WHAT POINT `t` WRITES BACK to the second result is block `t` of softplus of the scale head. -/
theorem flushed10_eq (c : Dev nD) (t : Fin cfg0.N) :
    (dats m 0 c).flushed 10 t = ((cfg0.win 10).blk t).view.read (Elt Ideal) (sigmaK m c) := by
  rw [Value.flushed10]
  funext y
  show out0_10 (iblk m c 0 t) (iblk m c 1 t) (iblk m c 2 t) (iblk m c 3 t) (iblk m c 4 t) (iblk m c 5 t) (iblk m c 6 t)
      (iblk m c 7 t) (iblk m c 8 t) y = sigmaK m c (((cfg0.win 10).blk t).view.emb y)
  refine (out10_at (iblk m c 0 t) (iblk m c 1 t) (iblk m c 2 t) (iblk m c 3 t) (iblk m c 4 t) (iblk m c 5 t)
    (iblk m c 6 t) (iblk m c 7 t) (iblk m c 8 t) y).trans ?_
  rw [emb10 t y]
  refine Eq.trans ?_ (sigmaK_at m c (row t (y 0)) (y 1)).symm
  exact congrArg Spec.softplus (head_hid_congr (fun cc d => blk0 m c t (y 0) cc d) (fun d => blk1 m c t (y 0) d)
    (fun d e => blk2 m c t d e) (fun d e => blk3 m c t d e) (fun e => blk4 m c t 0 e) (fun k j => blk7 m c t k j)
    (fun j => blk8 m c t 0 j) rfl)

/-- An index of a result array is in point `t`'s block iff each coordinate is in the block's range on its axis. -/
theorem mem_blk9 (t : Fin cfg0.N) (i : S16384x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v29_0).slice (win0_9.rect t)).set ↔ _
  rw [View.set_slice_whole, Rect.mem_set_unit]
  exact Iff.rfl

theorem mem_blk10 (t : Fin cfg0.N) (i : S16384x128.Idx) :
    i ∈ ((cfg0.win 10).blk t).view.set ↔ ∀ a : Fin 2, win0_10.index t a * S2048x128.size a ≤ (i a).val
      ∧ (i a).val < win0_10.index t a * S2048x128.size a + S2048x128.size a := by
  show i ∈ ((View.whole main_v29_1).slice (win0_10.rect t)).set ↔ _
  rw [View.set_slice_whole, Rect.mem_set_unit]
  exact Iff.rfl

/-- The point whose block holds batch row `b`: `b / 2048`. -/
def pointOf (i : S16384x128.Idx) : Fin cfg0.N := ⟨(i 0).val / 2048, by
  have h : (i 0).val < 16384 := (i 0).isLt
  show (i 0).val / 2048 < grid0.N
  rw [N_0]; omega⟩

/-- The eight blocks tile the rows: every index is in the block of the point its row belongs to. -/
theorem cover9 (i : S16384x128.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  have ht : (pointOf i).val = (i 0).val / 2048 := rfl
  obtain ⟨-, -, -, -, -, -, -, -, -, -, -, -, -, -, -, -, -, -, -, e0, e1, -⟩ := idx_facts (pointOf i)
  refine ⟨pointOf i, flush0_9 _, ?_⟩
  rw [mem_blk9]
  intro a
  match a with
  | ⟨0, _⟩ =>
    show win0_9.index (pointOf i) (0 : Fin 2) * 2048 ≤ (i 0).val
      ∧ (i 0).val < win0_9.index (pointOf i) (0 : Fin 2) * 2048 + 2048
    omega
  | ⟨1, _⟩ =>
    show win0_9.index (pointOf i) (1 : Fin 2) * 128 ≤ (i 1).val
      ∧ (i 1).val < win0_9.index (pointOf i) (1 : Fin 2) * 128 + 128
    omega

theorem cover10 (i : S16384x128.Idx) :
    ∃ t : Fin cfg0.N, (cfg0.win 10).flush t = true ∧ i ∈ ((cfg0.win 10).blk t).view.set := by
  have hi0 : (i 0).val < 16384 := (i 0).isLt
  have hi1 : (i 1).val < 128 := (i 1).isLt
  have ht : (pointOf i).val = (i 0).val / 2048 := rfl
  obtain ⟨-, -, -, -, -, -, -, -, -, -, -, -, -, -, -, -, -, -, -, -, -, e0, e1⟩ := idx_facts (pointOf i)
  refine ⟨pointOf i, flush0_10 _, ?_⟩
  rw [mem_blk10]
  intro a
  match a with
  | ⟨0, _⟩ =>
    show win0_10.index (pointOf i) (0 : Fin 2) * 2048 ≤ (i 0).val
      ∧ (i 0).val < win0_10.index (pointOf i) (0 : Fin 2) * 2048 + 2048
    omega
  | ⟨1, _⟩ =>
    show win0_10.index (pointOf i) (1 : Fin 2) * 128 ≤ (i 1).val
      ∧ (i 1).val < win0_10.index (pointOf i) (1 : Fin 2) * 128 + 128
    omega

/-- THE FIRST RESULT after the run is the mean head. -/
theorem final9 (c : Dev nD) : (dats m 0 c).arrAt 9 cfg0.N = muK m c :=
  (dats m 0 c).arrAt_eq_of_cover 9 (muK m c) (fun t _ => flushed9_eq m c t) cover9

/-- THE SECOND RESULT after the run is softplus of the scale head. -/
theorem final10 (c : Dev nD) : (dats m 0 c).arrAt 10 cfg0.N = sigmaK m c :=
  (dats m 0 c).arrAt_eq_of_cover 10 (sigmaK m c) (fun t _ => flushed10_eq m c t) cover10

/-- The kernel's run with both result arrays at their whole-array functions, the arguments unchanged. -/
theorem run : θ_run defs (onTc (τ := τ) (main (F := Ideal))) ⟨m, fun _ => 0, ρ⟩ fun r => ∀ c : Dev nD,
      r.2.mem ((c : Thread nD τ).loc main_v29_0) = muK m c
      ∧ r.2.mem ((c : Thread nD τ).loc main_v29_1) = sigmaK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.KValue

end
-- ==== Proof.RefValue.lean ====
/-
  The reference, read one entry at a time at the ideal values, is the row specification of the gathered embeddings.

  The reference stacks each context embedding with the target embedding along the feature axis and contracts the 256
  stacked features against the whole weight in one sum; splitting that sum into its two halves gives the context part
  and the target part. Its sum over the ten contexts starts from zero, and its two heads contract the hidden vector
  against the transposed head weights. The two gathered arrays are kept as they are: both programs gather alike.
-/
import proofs.«173438_j84894323573021_1_alg».proof.Proof.Gen.ReferenceIdeal.Read
import proofs.«173438_j84894323573021_1_alg».proof.Proof.Spec
import Idealize.ShloMosaic.Lib.ValueLayout

noncomputable section

open scoped BigOperators

namespace Cert.ReferenceIdeal.RefValue

open Cert.ReferenceIdeal Cert.ReferenceIdeal.Read Idealize.ShloMosaic Idealize.ShloMosaic.ValueIdx

variable (x0 : (⟨S16384, .i32⟩ : BufTy).Contents (Elt Ideal)) (x1 : (⟨S16384x10, .i32⟩ : BufTy).Contents (Elt Ideal)) (x2 : (⟨S100000x128, .f32⟩ : BufTy).Contents (Elt Ideal))
  (x3 : (⟨S256x256, .f32⟩ : BufTy).Contents (Elt Ideal)) (x4 : (⟨S256, .f32⟩ : BufTy).Contents (Elt Ideal))

/-- The zero word is the number zero. -/
theorem zero_word : (FloatOps.ofBits (F := Ideal) .f32 0x00000000#32) = (0 : EReal) := Ideal.ofBits_zero_f32

/-- A first-half feature of the stacked array is the context embedding's. -/
theorem stacked_lo (b : Fin 16384) (c : Fin 10) (d : Fin 128) :
    val_main_v16 (F := Ideal) x0 x1 x2 (ix3 b c (Spec.lo d)) = val_main_v13 (F := Ideal) x1 x2 (ix3 b c d) := by
  unfold val_main_v16
  exact concatenate_pair_apply_left (t := S16384x10x256) (s₁ := S16384x10x128) (s₂ := S16384x10x128) 2 _ _ _
    (ix3 b c (Spec.lo d)) rfl (ix3 b c d : S16384x10x128.Idx) (fun ax => by
    match ax with
    | ⟨0, _⟩ => rfl
    | ⟨1, _⟩ => rfl
    | ⟨2, _⟩ => rfl)

/-- A second-half feature of the stacked array is the target embedding's, whatever the context. -/
theorem stacked_hi (b : Fin 16384) (c : Fin 10) (d : Fin 128) :
    val_main_v16 (F := Ideal) x0 x1 x2 (ix3 b c (Spec.hi d)) = val_main_v6 (F := Ideal) x0 x2 (ix2 b d) := by
  unfold val_main_v16
  rw [concatenate_pair_apply_right (t := S16384x10x256) (s₁ := S16384x10x128) (s₂ := S16384x10x128) 2 _ _ _
    (ix3 b c (Spec.hi d)) rfl rfl (ix3 b c d : S16384x10x128.Idx) (fun ax hne => by
    match ax with
    | ⟨0, _⟩ => rfl
    | ⟨1, _⟩ => rfl
    | ⟨2, _⟩ => exact absurd rfl hne) (by show d.val + 128 = 128 + d.val; omega)]
  rw [val_main_v15_apply, val_main_v14_apply]
  exact congrArg _ (funext fun ax => Fin.ext (by
    match ax with
    | ⟨0, _⟩ => rfl
    | ⟨1, _⟩ => rfl))

/-- The pre-activation at row `b`, context `c`, hidden coordinate `e`. -/
theorem pre_apply (b : Fin 16384) (c : Fin 10) (e : Fin 256) :
    val_main_v20 (F := Ideal) x0 x1 x2 x3 x4 (ix3 b c e)
      = Spec.pre (fun c d => val_main_v13 (F := Ideal) x1 x2 (ix3 b c d)) (fun d => val_main_v6 (F := Ideal) x0 x2 (ix2 b d))
          (fun d e => x3 (ix2 e (Spec.lo d))) (fun d e => x3 (ix2 e (Spec.hi d))) (fun e => x4 (ix1 e)) c e := by
  rw [val_main_v20_apply, val_main_v17_apply, val_main_v19_apply, val_main_v18_apply]
  have hl : ∀ k : Fin 256, lidx_main_v17 (ix3 b c e) k = ix3 b c k := fun k => funext fun ax => Fin.ext (by
    match ax with
    | ⟨0, _⟩ => rfl
    | ⟨1, _⟩ => rfl
    | ⟨2, _⟩ => rfl)
  have hr : ∀ k : Fin 256, ridx_main_v17 (ix3 b c e) k = ix2 e k := fun k => funext fun ax => Fin.ext (by
    match ax with
    | ⟨0, _⟩ => rfl
    | ⟨1, _⟩ => rfl)
  have hb : idx_main_v18 (idx_main_v19 (ix3 b c e)) = ix1 e := funext fun ax => Fin.ext (by
    match ax with
    | ⟨0, _⟩ => rfl)
  simp only [hl, hr, hb]
  exact Spec.pre_stacked _ _ _ _ (fun e => x4 (ix1 e)) (fun k => val_main_v16 (F := Ideal) x0 x1 x2 (ix3 b c k))
    (fun k => x3 (ix2 e k)) c e (fun d => by rw [stacked_lo]) (fun d => by rw [stacked_hi])

/-- The hidden vector of row `b`. -/
theorem hid_apply (b : Fin 16384) (e : Fin 256) :
    val_main_v22 (F := Ideal) x0 x1 x2 x3 x4 (ix2 b e)
      = Spec.hidAt (val_main_v13 (F := Ideal) x1 x2) (val_main_v6 (F := Ideal) x0 x2) x3 x4 b e := by
  rw [val_main_v22_apply, val_main_cst_apply, zero_word, zero_add]
  unfold Spec.hidAt Spec.hid
  refine Finset.sum_congr rfl fun c _ => ?_
  have hi : idx_main_v22 (ix2 b e) c = ix3 b c e := funext fun ax => Fin.ext (by
    match ax with
    | ⟨0, _⟩ => rfl
    | ⟨1, _⟩ => rfl
    | ⟨2, _⟩ => rfl)
  rw [hi, val_main_v21_apply, val_main_call0_v0_apply, val_main_call0_cst_apply, zero_word, pre_apply]
  rfl

variable (x5 : (⟨S128x256, .f32⟩ : BufTy).Contents (Elt Ideal)) (x6 : (⟨S128, .f32⟩ : BufTy).Contents (Elt Ideal))
  (x7 : (⟨S128x256, .f32⟩ : BufTy).Contents (Elt Ideal)) (x8 : (⟨S128, .f32⟩ : BufTy).Contents (Elt Ideal))

/-- The first result is the mean head of the gathered embeddings. -/
theorem mu_eq :
    val_main_v27 (F := Ideal) x0 x1 x2 x3 x4 x5 x6
      = Spec.mu (val_main_v13 (F := Ideal) x1 x2) (val_main_v6 (F := Ideal) x0 x2) x3 x4 x5 x6 := by
  funext i
  obtain ⟨b, j, rfl⟩ : ∃ (b : Fin 16384) (j : Fin 128), i = ix2 b j := ⟨i 0, i 1, eq_ix2 i⟩
  rw [val_main_v27_apply, val_main_v24_apply, val_main_v26_apply, val_main_v25_apply]
  have hl : ∀ k : Fin 256, lidx_main_v24 (ix2 b j) k = ix2 b k := fun k => funext fun ax => Fin.ext (by
    match ax with
    | ⟨0, _⟩ => rfl
    | ⟨1, _⟩ => rfl)
  have hr : ∀ k : Fin 256, val_main_v23 (F := Ideal) x5 (ridx_main_v24 (ix2 b j) k) = x5 (ix2 j k) := fun k => by
    rw [val_main_v23_apply]
    exact congrArg x5 (funext fun ax => Fin.ext (by
      match ax with
      | ⟨0, _⟩ => rfl
      | ⟨1, _⟩ => rfl))
  have hb : idx_main_v25 (idx_main_v26 (ix2 b j)) = ix1 j := funext fun ax => Fin.ext (by
    match ax with
    | ⟨0, _⟩ => rfl)
  simp only [hl, hr, hb, hid_apply]
  rfl

/-- The scale head before softplus. -/
theorem scale_apply (b : Fin 16384) (j : Fin 128) :
    val_main_v32 (F := Ideal) x0 x1 x2 x3 x4 x7 x8 (ix2 b j)
      = Spec.headAt (val_main_v13 (F := Ideal) x1 x2) (val_main_v6 (F := Ideal) x0 x2) x3 x4 x7 x8 b j := by
  rw [val_main_v32_apply, val_main_v29_apply, val_main_v31_apply, val_main_v30_apply]
  have hl : ∀ k : Fin 256, lidx_main_v29 (ix2 b j) k = ix2 b k := fun k => funext fun ax => Fin.ext (by
    match ax with
    | ⟨0, _⟩ => rfl
    | ⟨1, _⟩ => rfl)
  have hr : ∀ k : Fin 256, val_main_v28 (F := Ideal) x7 (ridx_main_v29 (ix2 b j) k) = x7 (ix2 j k) := fun k => by
    rw [val_main_v28_apply]
    exact congrArg x7 (funext fun ax => Fin.ext (by
      match ax with
      | ⟨0, _⟩ => rfl
      | ⟨1, _⟩ => rfl))
  have hb : idx_main_v30 (idx_main_v31 (ix2 b j)) = ix1 j := funext fun ax => Fin.ext (by
    match ax with
    | ⟨0, _⟩ => rfl)
  simp only [hl, hr, hb, hid_apply]
  rfl

/-- The second result is softplus of the scale head. -/
theorem sigma_eq :
    val_main_v33 (F := Ideal) x0 x1 x2 x3 x4 x7 x8
      = Spec.sigma (val_main_v13 (F := Ideal) x1 x2) (val_main_v6 (F := Ideal) x0 x2) x3 x4 x7 x8 := by
  funext i
  obtain ⟨b, j, rfl⟩ : ∃ (b : Fin 16384) (j : Fin 128), i = ix2 b j := ⟨i 0, i 1, eq_ix2 i⟩
  rw [val_main_v33_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, zero_word, scale_apply]
  exact Spec.softplus_neg _

end Cert.ReferenceIdeal.RefValue

end
-- ==== Proof.lean ====
/-
  An encoder over gathered embeddings: for each of 16384 batch rows, ten context embeddings and one target embedding
  (rows of a 100000 × 128 table, gathered on the host by both programs alike) pass through a 256 → 256 linear layer
  applied to each context embedding stacked with the target embedding, a rectifier, and a sum over the ten contexts;
  two linear heads of the 256-wide result give the mean and, after softplus, the scale.

  The kernel never stacks: it multiplies the context embedding by the first 128 columns of the weight and the target
  embedding by the last 128, adds the bias to the target part once, and adds the rectified terms one after the other.
  The reference stacks and contracts all 256 features at once. On the extended reals the two agree because a sum over
  256 coordinates is the sum over its two halves and addition is associative and commutative; no product is ever
  distributed over a sum, so the precondition is not used. The changes of float format in the kernel are the identity
  at the ideal values, both softplus spellings guard a case that no extended real meets, and their exponents
  `0 - |x|` and `-|x|` are one number.

  Spec.lean states the row computation and its laws; KernelBody.lean reads the kernel body's arithmetic at an entry;
  KernelValue.lean carries it from blocks to the whole result arrays; RefValue.lean reads the reference.
-/
import proofs.«173438_j84894323573021_1_alg».proof.Defs
import proofs.«173438_j84894323573021_1_alg».proof.Proof.Gen.Kernel
import proofs.«173438_j84894323573021_1_alg».proof.Proof.Gen.Kernel.Skeleton
import proofs.«173438_j84894323573021_1_alg».proof.Proof.Gen.Kernel.Launch
import proofs.«173438_j84894323573021_1_alg».proof.Proof.Gen.Kernel.Points
import proofs.«173438_j84894323573021_1_alg».proof.Proof.Gen.Kernel.Frame
import proofs.«173438_j84894323573021_1_alg».proof.Proof.Gen.KernelIdeal
import proofs.«173438_j84894323573021_1_alg».proof.Proof.Gen.KernelIdeal.Skeleton
import proofs.«173438_j84894323573021_1_alg».proof.Proof.Gen.KernelIdeal.Launch
import proofs.«173438_j84894323573021_1_alg».proof.Proof.Gen.KernelIdeal.Points
import proofs.«173438_j84894323573021_1_alg».proof.Proof.Gen.KernelIdeal.Frame
import proofs.«173438_j84894323573021_1_alg».proof.Proof.Gen.ReferenceIdeal
import proofs.«173438_j84894323573021_1_alg».proof.Proof.Gen.Pre_finite_inputs
import proofs.«173438_j84894323573021_1_alg».proof.Proof.Gen.KernelIdeal.Value
import proofs.«173438_j84894323573021_1_alg».proof.Proof.Gen.ReferenceIdeal.Run
import proofs.«173438_j84894323573021_1_alg».proof.Proof.Gen.ReferenceIdeal.Read
import proofs.«173438_j84894323573021_1_alg».proof.Proof.KernelValue
import proofs.«173438_j84894323573021_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both programs gather the target embeddings by the same host operations. -/
theorem tw_same (m : (ℓ : Loc Cert.KernelIdeal.nD Cert.KernelIdeal.τ Cert.KernelIdeal.sig) → Buf (Elt Ideal) ℓ)
    (c : Dev Cert.KernelIdeal.nD) :
    Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) = Cert.KernelIdeal.KValue.twK m c := rfl

/-- And the context embeddings. -/
theorem cw_same (m : (ℓ : Loc Cert.KernelIdeal.nD Cert.KernelIdeal.τ Cert.KernelIdeal.sig) → Buf (Elt Ideal) ℓ)
    (c : Dev Cert.KernelIdeal.nD) :
    Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.KernelIdeal.KValue.cwK m c := rfl

/-- From memories that agree on the arguments both programs end with the mean head and softplus of the scale head of
    the same gathered embeddings and the same weights. -/
theorem algebraic : Cert.algebraic_KernelIdeal_ReferenceIdeal := by
  intro m ρ m' ρ' _ hagree
  refine ⟨fun c => Cert.KernelIdeal.KValue.muK m c, fun c => Cert.KernelIdeal.KValue.sigmaK m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v27_eq, Cert.ReferenceIdeal.RefValue.mu_eq, h0, h1, h2, h3, h4, h5, h6,
      tw_same, cw_same]
    rfl
  · obtain ⟨h0, h1, h2, h3, h4, h5, h6, h7, h8⟩ := hagree c
    rw [Cert.ReferenceIdeal.Read.val_main_v33_eq, Cert.ReferenceIdeal.RefValue.sigma_eq, h0, h1, h2, h3, h4, h7, h8,
      tw_same, cw_same]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
